-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S1 : Shape := ⟨1, ![1]⟩
abbrev S4x16x64x2048 : Shape := ⟨4, ![4, 16, 64, 2048]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel
  bcast_S_S1 : S_.BroadcastsInDim S1 (![] : Fin 0 → Fin S1.rank)
  reducesTo_S1_S_d0 : S1.ReducesTo [0] S_
  bcast_S_S4x16x64x2048 : S_.BroadcastsInDim S4x16x64x2048 (![] : Fin 0 → Fin S4x16x64x2048.rank)
  reducesTo_S4x16x64x2048_S_d0_1_2_3 : S4x16x64x2048.ReducesTo [0, 1, 2, 3] S_

variable [Facts]

def fn_part1 {F : FTy → Type} [FloatOps F] (main_arg1 : FVec F S1 .f32) (main_arg3 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_cst_6 : FVec F S_ .f32 := constant S_ .f32 0x00000000#32
  let main_v19 : FVec F S1 .f32 := broadcastInDim S1 ![] bcast_S_S1 main_cst_6
  let main_v20 : IVec S1 1 := cmpf .une main_arg1 main_v19
  let main_c_7 : IVec S_ 1 := constantI S_ 1 1#1
  let main_v21 : IVec S_ 1 := (fun x v => Host.reduce IntOp.andi x v reducesTo_S1_S_d0 h_S_) main_v20 main_c_7
  let main_v22 : IVec S_ 1 := andi main_v18 main_v21
  let main_cst_8 : FVec F S_ .f32 := constant S_ .f32 0x00000000#32
  let main_v23 : FVec F S1 .f32 := broadcastInDim S1 ![] bcast_S_S1 main_cst_8
  let main_v24 : IVec S1 1 := cmpf .une main_arg3 main_v23
  let main_c_9 : IVec S_ 1 := constantI S_ 1 1#1
  let main_v25 : IVec S_ 1 := (fun x v => Host.reduce IntOp.andi x v reducesTo_S1_S_d0 h_S_) main_v24 main_c_9
  let main_v26 : IVec S_ 1 := andi main_v22 main_v25
  main_v26

def fn {F : FTy → Type} [FloatOps F] (main_arg0 : FVec F S4x16x2048x64 .f32) (main_arg1 : FVec F S1 .f32) (main_arg2 : FVec F S4x16x64x2048 .f32) (main_arg3 : FVec F S1 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S4x16x64x2048 .f32 := Host.absf main_arg2
  let main_cst_2 : FVec F S_ .f32 := constant S_ .f32 0x7F800000#32
  let main_v10 : FVec F S4x16x64x2048 .f32 := broadcastInDim S4x16x64x2048 ![] bcast_S_S4x16x64x2048 main_cst_2
  let main_v11 : IVec S4x16x64x2048 1 := cmpf .olt main_v9 main_v10
  let main_c_3 : IVec S_ 1 := constantI S_ 1 1#1
  let main_v12 : IVec S_ 1 := (fun x v => Host.reduce IntOp.andi x v reducesTo_S4x16x64x2048_S_d0_1_2_3 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg1 main_arg3 main_v13 main_v16
-- ==== Kernel.lean ====
abbrev S4x16x2048x64 : Shape := ⟨4, ![4, 16, 2048, 64]⟩
abbrev S1 : Shape := ⟨1, ![1]⟩
abbrev S4x16x64x2048 : Shape := ⟨4, ![4, 16, 64, 2048]⟩
abbrev S64x2048x64 : Shape := ⟨3, ![64, 2048, 64]⟩
abbrev S64x64x2048 : Shape := ⟨3, ![64, 64, 2048]⟩
abbrev S64x2048x2048 : Shape := ⟨3, ![64, 2048, 2048]⟩
abbrev S1x2048x64 : Shape := ⟨3, ![1, 2048, 64]⟩
abbrev S1x64x1024 : Shape := ⟨3, ![1, 64, 1024]⟩
abbrev S1x2048x1024 : Shape := ⟨3, ![1, 2048, 1024]⟩
abbrev S2048x64 : Shape := ⟨2, ![2048, 64]⟩
abbrev S64x1024 : Shape := ⟨2, ![64, 1024]⟩
abbrev S2048x1024 : Shape := ⟨2, ![2048, 1024]⟩
abbrev S4x16x2048x2048 : Shape := ⟨4, ![4, 16, 2048, 2048]⟩

abbrev nBuf : Space → Nat
  | .hbm => 9
  | .vmem => 6
  | .smem => 0
  | _ => 0

abbrev bufTy : (tb : Table) → Fin (tcTables nBuf tb) → BufTy
  | .hbm, ⟨0, _⟩ => ⟨S4x16x2048x64, .f32⟩
  | .hbm, ⟨1, _⟩ => ⟨S1, .f32⟩
  | .hbm, ⟨2, _⟩ => ⟨S4x16x64x2048, .f32⟩
  | .hbm, ⟨3, _⟩ => ⟨S1, .f32⟩
  | .hbm, ⟨4, _⟩ => ⟨S64x2048x64, .f32⟩
  | .hbm, ⟨5, _⟩ => ⟨S64x64x2048, .f32⟩
  | .hbm, ⟨6, _⟩ => ⟨S64x2048x2048, .f32⟩
  | .hbm, ⟨7, _⟩ => ⟨S4x16x2048x2048, .f32⟩
  | .hbm, ⟨8, _⟩ => ⟨S1, .f32⟩
  | .local _ .vmem, ⟨0, _⟩ => ⟨S1x2048x64, .f32⟩
  | .local _ .vmem, ⟨1, _⟩ => ⟨S1x2048x64, .f32⟩
  | .local _ .vmem, ⟨2, _⟩ => ⟨S1x64x1024, .f32⟩
  | .local _ .vmem, ⟨3, _⟩ => ⟨S1x64x1024, .f32⟩
  | .local _ .vmem, ⟨4, _⟩ => ⟨S1x2048x1024, .f32⟩
  | .local _ .vmem, ⟨5, _⟩ => ⟨S1x2048x1024, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S4x16x2048x64_S64x2048x64 : S4x16x2048x64.ShapeCasts S64x2048x64
  shapeCasts_S4x16x64x2048_S64x64x2048 : S4x16x64x2048.ShapeCasts S64x64x2048
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  bitsLt_bf16_f32 : FTy.bits .bf16 < FTy.bits .f32
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S2048x1024_S1x2048x1024 : S2048x1024.ShapeCasts S1x2048x1024
  shapeCasts_S64x2048x2048_S4x16x2048x2048 : S64x2048x2048.ShapeCasts S4x16x2048x2048
  dot_S2048x64_S64x1024_S2048x1024_1_0_0_1_n_n_wf : DotDims.WF S2048x64 S64x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S64x2048x64.size a
  hwx0_0 : ∀ i : grid0.Coords, EltTy.bits .f32 = 32 ∨ (Rect.block (s := S64x2048x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1024.size a ≤ S64x64x2048.size a
  hwx0_1 : ∀ i : grid0.Coords, EltTy.bits .f32 = 32 ∨ (Rect.block (s := S64x64x2048) S1x64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S64x2048x2048.size a
  hwx0_2 : ∀ i : grid0.Coords, EltTy.bits .f32 = 32 ∨ (Rect.block (s := S64x2048x2048) S1x2048x1024.size (cc0_transform_2 i) (hinb0_2 i)).WholeWords (EltTy.packing .f32)

variable [Facts₀]

def dot_S2048x64_S64x1024_S2048x1024_1_0_0_1_n_n : DotDims S2048x64 S64x1024 S2048x1024 where
  lhsContracting := [1]
  rhsContracting := [0]
  lhsNonContracting := [0]
  rhsNonContracting := [1]
  lhsBatch := []
  rhsBatch := []
  wf := dot_S2048x64_S64x1024_S2048x1024_1_0_0_1_n_n_wf

abbrev win0_0 : Pipeline.Window sig grid0 :=
  Pipeline.Window.ofSpec (Memref.whole main_v0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S1 : Shape := ⟨1, ![1]⟩
abbrev S4x16x64x2048 : Shape := ⟨4, ![4, 16, 64, 2048]⟩
abbrev S1x1x1x1 : Shape := ⟨4, ![1, 1, 1, 1]⟩
abbrev S4x16x2048x2048 : Shape := ⟨4, ![4, 16, 2048, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S1, .f32⟩
  | .hbm, ⟨2, _⟩ => ⟨S4x16x64x2048, .f32⟩
  | .hbm, ⟨3, _⟩ => ⟨S1, .f32⟩
  | .hbm, ⟨4, _⟩ => ⟨S1x1x1x1, .f32⟩
  | .hbm, ⟨5, _⟩ => ⟨S4x16x2048x64, .f32⟩
  | .hbm, ⟨6, _⟩ => ⟨S4x16x2048x64, .f32⟩
  | .hbm, ⟨7, _⟩ => ⟨S1x1x1x1, .f32⟩
  | .hbm, ⟨8, _⟩ => ⟨S4x16x64x2048, .f32⟩
  | .hbm, ⟨9, _⟩ => ⟨S4x16x64x2048, .f32⟩
  | .hbm, ⟨10, _⟩ => ⟨S1, .f32⟩
  | .hbm, ⟨11, _⟩ => ⟨S4x16x2048x2048, .f32⟩
  | .hbm, ⟨12, _⟩ => ⟨S1x1x1x1, .f32⟩
  | .hbm, ⟨13, _⟩ => ⟨S4x16x2048x2048, .f32⟩
  | .hbm, ⟨14, _⟩ => ⟨S4x16x2048x2048, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  bcast_S1_S1x1x1x1_3 : S1.BroadcastsInDim S1x1x1x1 (![3] : Fin 1 → Fin S1x1x1x1.rank)
  bcast_S1x1x1x1_S4x16x2048x64_0_1_2_3 : S1x1x1x1.BroadcastsInDim S4x16x2048x64 (![0, 1, 2, 3] : Fin 4 → Fin S4x16x2048x64.rank)
  bcast_S1x1x1x1_S4x16x64x2048_0_1_2_3 : S1x1x1x1.BroadcastsInDim S4x16x64x2048 (![0, 1, 2, 3] : Fin 4 → Fin S4x16x64x2048.rank)
  bcast_S1x1x1x1_S4x16x2048x2048_0_1_2_3 : S1x1x1x1.BroadcastsInDim S4x16x2048x2048 (![0, 1, 2, 3] : Fin 4 → Fin S4x16x2048x2048.rank)
  dot_S4x16x2048x64_S4x16x64x2048_S4x16x2048x2048_3_2_2_3_01_01_wf : DotDims.WF S4x16x2048x64 S4x16x64x2048 S4x16x2048x2048 [3] [2] [2] [3] [0, 1] [0, 1]

variable [Facts₀]

def dot_S4x16x2048x64_S4x16x64x2048_S4x16x2048x2048_3_2_2_3_01_01 : DotDims S4x16x2048x64 S4x16x64x2048 S4x16x2048x2048 where
  lhsContracting := [3]
  rhsContracting := [2]
  lhsNonContracting := [2]
  rhsNonContracting := [3]
  lhsBatch := [0, 1]
  rhsBatch := [0, 1]
  wf := dot_S4x16x2048x64_S4x16x64x2048_S4x16x2048x2048_3_2_2_3_01_01_wf

class Facts : Prop extends Facts₀ where

variable [Facts]
-- ==== Proof.Finite.lean ====
/-
  What the precondition says of the inputs at the exact values. The printed predicate is a conjunction of six
  `all`s: for each of the four float arrays that every entry `x` has `|x| < +∞`, and for each of the two
  one-entry scale arrays that its entry differs from zero. On the extended reals `|x| = max x (-x) < ⊤` holds
  exactly of the reals (at `⊤` and at `⊥` the maximum is `⊤`), so every entry of the two operands is a real and
  each scale is a nonzero real: what the cancellation of the scales needs.
-/
import proofs.«430411_j52140902974013_3_alg».proof.Pre_finite_inputs
import Idealize.ShloMosaic.Lib.ReduceAll
import Idealize.ShloMosaic.PureOps.Ideal.Laws
import Idealize.ShloMosaic.Lib.ValueIdx

noncomputable section

namespace Cert.ScaledDot

open Idealize.ShloMosaic Cert.Pre_finite_inputs

/-- The rank-0 result of an `all` has one index. -/
instance : Subsingleton S_.Idx := ⟨fun _ _ => funext fun d => d.elim0⟩

/-- The word of `+∞` denotes the top of the extended reals. -/
theorem ofBits_inf : Ideal.ofBits .f32 0x7F800000#32 = ⊤ := by simp [Ideal.ofBits, Ideal.ieee]

/-- An extended real of absolute value below `+∞` is a real. -/
theorem real_of_abs_lt (x : EReal) (h : Ideal.cmp .olt (max x (-x)) (Ideal.ofBits .f32 0x7F800000#32) = 1#1) :
    ∃ r : ℝ, x = (r : EReal) := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- An extended real that compares unequal to the zero word is not zero. -/
theorem ne_zero_of_une (x : EReal) (h : Ideal.cmp .une x (Ideal.ofBits .f32 0x00000000#32) = 1#1) : x ≠ 0 := by
  rw [Ideal.ofBits_zero_f32] at h
  intro hx
  simp [Ideal.cmp, hx] at h

variable [Cert.Pre_finite_inputs.Facts]

/-- The precondition read back: the operands' entries are reals, the scales nonzero reals. -/
theorem of_pre (x0 : FVec Ideal S4x16x2048x64 .f32) (x1 : FVec Ideal S1 .f32) (x2 : FVec Ideal S4x16x64x2048 .f32)
    (x3 : FVec Ideal S1 .f32) (h : Cert.Pre_finite_inputs.fn (F := Ideal) x0 x1 x2 x3 = fun _ => 1#1) :
    (∀ i, ∃ r : ℝ, x0 i = (r : EReal)) ∧ (∀ i, ∃ r : ℝ, x2 i = (r : EReal))
      ∧ (∀ j, ∃ r : ℝ, r ≠ 0 ∧ x1 j = (r : EReal)) ∧ (∀ j, ∃ r : ℝ, r ≠ 0 ∧ x3 j = (r : EReal)) := by
  have h0 := congrFun h ValueIdx.ix0
  dsimp only [Cert.Pre_finite_inputs.fn, Cert.Pre_finite_inputs.fn_part1] at h0
  obtain ⟨h5, n3⟩ := IntOp.andi_eq_one.1 h0
  obtain ⟨h4, n1⟩ := IntOp.andi_eq_one.1 h5
  obtain ⟨h3, e3⟩ := IntOp.andi_eq_one.1 h4
  obtain ⟨h2, e2⟩ := IntOp.andi_eq_one.1 h3
  obtain ⟨e0, e1⟩ := IntOp.andi_eq_one.1 h2
  refine ⟨fun i => real_of_abs_lt (x0 i) (Host.reduce_andi_all _ _ _ _ _ e0 i),
    fun i => real_of_abs_lt (x2 i) (Host.reduce_andi_all _ _ _ _ _ e2 i), fun j => ?_, fun j => ?_⟩
  · obtain ⟨r, hr⟩ := real_of_abs_lt (x1 j) (Host.reduce_andi_all _ _ _ _ _ e1 j)
    have hne : x1 j ≠ 0 := ne_zero_of_une (x1 j) (Host.reduce_andi_all _ _ _ _ _ n1 j)
    exact ⟨r, fun hz => hne (by rw [hr, hz, EReal.coe_zero]), hr⟩
  · obtain ⟨r, hr⟩ := real_of_abs_lt (x3 j) (Host.reduce_andi_all _ _ _ _ _ e3 j)
    have hne : x3 j ≠ 0 := ne_zero_of_une (x3 j) (Host.reduce_andi_all _ _ _ _ _ n3 j)
    exact ⟨r, fun hz => hne (by rw [hr, hz, EReal.coe_zero]), hr⟩

end Cert.ScaledDot

end
-- ==== Proof.Spec.lean ====
/-
  The specification. Both programs compute a batch of 4 * 16 = 64 matrix products: with `A : [4, 16, 2048, 64]`
  and `B : [4, 16, 64, 2048]`, the result at `(p, q, r, s)` is `∑ k, A (p, q, r, k) * B (p, q, k, s)` over the 64
  contracted coordinates (`bmm`). The kernel first merges the two batch axes, `(p, q) ↦ 16 p + q`, multiplies
  the 64 matrices of `[64, 2048, 64]` and `[64, 64, 2048]` (`bmm3`) and splits the merged axis of the result again;
  a reshape keeps an entry's row-major position, and `(p, q, r, s)` of `[4, 16, m, n]` has the position of
  `(16 p + q, r, s)` of `[64, m, n]`, so the merged product read through the reshapes is `bmm` (`bmm3_reshape`).
-/
import Idealize.ShloMosaic.Lib.ValueIdx
import Idealize.ShloMosaic.Lib.Pipeline.Value
import Idealize.ShloMosaic.PureOps.Ideal

noncomputable section

namespace Cert.ScaledDot

open Idealize.ShloMosaic Idealize.ShloMosaic.ValueIdx

/-- The left operand, the right operand and the result, with the batch axes apart -/
abbrev SA : Shape := ⟨4, ![4, 16, 2048, 64]⟩
abbrev SB : Shape := ⟨4, ![4, 16, 64, 2048]⟩
abbrev SO : Shape := ⟨4, ![4, 16, 2048, 2048]⟩
/-- and with the batch axes merged. -/
abbrev SA3 : Shape := ⟨3, ![64, 2048, 64]⟩
abbrev SB3 : Shape := ⟨3, ![64, 64, 2048]⟩
abbrev SO3 : Shape := ⟨3, ![64, 2048, 2048]⟩

/-- The batched matrix product, index by index. -/
def bmm (A : SA.Idx → EReal) (B : SB.Idx → EReal) : SO.Idx → EReal :=
  fun i => ∑ k : Fin 64, A (ix4 (i 0) (i 1) (i 2) k) * B (ix4 (i 0) (i 1) k (i 3))

/-- The same over one merged batch axis. -/
def bmm3 (a : SA3.Idx → EReal) (b : SB3.Idx → EReal) : SO3.Idx → EReal :=
  fun i => ∑ k : Fin 64, a (ix3 (i 0) (i 1) k) * b (ix3 (i 0) k (i 2))

theorem bmm_apply (A : SA.Idx → EReal) (B : SB.Idx → EReal) (p : Fin 4) (q : Fin 16) (r : Fin 2048) (s : Fin 2048) :
    bmm A B (ix4 p q r s) = ∑ k : Fin 64, A (ix4 p q r k) * B (ix4 p q k s) := rfl

theorem bmm3_apply (a : SA3.Idx → EReal) (b : SB3.Idx → EReal) (g : Fin 64) (r : Fin 2048) (s : Fin 2048) :
    bmm3 a b (ix3 g r s) = ∑ k : Fin 64, a (ix3 g r k) * b (ix3 g k s) := rfl

/-- Merging the batch axes of the operands, multiplying, and splitting the batch axis of the result is the batched
    product: each reshape is read at the index of equal row-major position. -/
theorem bmm3_reshape (A : SA.Idx → EReal) (B : SB.Idx → EReal) (hA : SA.ShapeCasts SA3) (hB : SB.ShapeCasts SB3)
    (hO : SO3.ShapeCasts SO) :
    shapeCast SO (bmm3 (shapeCast SA3 A hA) (shapeCast SB3 B hB)) hO = bmm A B := by
  funext i
  obtain ⟨p, q, r, s, rfl⟩ : ∃ (p : Fin 4) (q : Fin 16) (r : Fin 2048) (s : Fin 2048), i = ix4 p q r s :=
    ⟨i 0, i 1, i 2, i 3, eq_ix4 i⟩
  have hpq : p.val * 16 + q.val < 64 := by omega
  rw [shapeCast_apply _ hO (ix4 p q r s) (ix3 (⟨p.val * 16 + q.val, hpq⟩ : Fin 64) r s) (by
    rw [Shape.rowMajor_val_three, Shape.rowMajor_val_four]; rfl), bmm3_apply, bmm_apply]
  refine Finset.sum_congr rfl fun k _ => ?_
  rw [shapeCast_apply A hA (ix3 (⟨p.val * 16 + q.val, hpq⟩ : Fin 64) r k) (ix4 p q r k) (by
      rw [Shape.rowMajor_val_three, Shape.rowMajor_val_four]; rfl),
    shapeCast_apply B hB (ix3 (⟨p.val * 16 + q.val, hpq⟩ : Fin 64) k s) (ix4 p q k s) (by
      rw [Shape.rowMajor_val_three, Shape.rowMajor_val_four]; rfl)]

end Cert.ScaledDot

end
-- ==== Proof.Dequant.lean ====
/-
  The law that joins the two programs. The reference divides every entry of the left operand by a scale `sa`
  and every entry of the right operand by a scale `sb`, contracts, and multiplies the contraction by `sa * sb`;
  the kernel contracts the raw entries. For REAL entries and NONZERO REAL scales the two agree on the extended
  reals: each quotient `x / s` is the product `x * (1/s)` (division by a nonzero real), so every term of the
  reference's sum is a real, the sum is a real, and in the reals
      (∑ k, (a k / sa) * (b k / sb)) * (sa * sb) = ∑ k, a k * b k
  because `(1/sa) * (1/sb) * (sa * sb) = 1`. Both hypotheses are needed: at an infinite entry the products
  `⊤ * 0` collapse, and at a zero scale the quotient is an infinity and the rescale by `0` gives `0`.
-/
import Idealize.ShloMosaic.PureOps.Ideal

noncomputable section

namespace Cert.ScaledDot

open Idealize.ShloMosaic

/-- The coercion of the reals into the extended reals commutes with finite sums. -/
theorem coe_sum {ι : Type} (s : Finset ι) (f : ι → ℝ) :
    ((∑ k ∈ s, f k : ℝ) : EReal) = ∑ k ∈ s, ((f k : ℝ) : EReal) := by
  classical
  refine Finset.induction_on s (by simp) ?_
  intro a s ha ih
  rw [Finset.sum_insert ha, Finset.sum_insert ha, EReal.coe_add, ih]

/-- The scales cancel in the reals. -/
theorem real_cancel {ι : Type} [Fintype ι] (a b : ι → ℝ) {sa sb : ℝ} (ha : sa ≠ 0) (hb : sb ≠ 0) :
    (∑ k, (a k * (1 / sa)) * (b k * (1 / sb))) * (sa * sb) = ∑ k, a k * b k := by
  rw [Finset.sum_mul]
  refine Finset.sum_congr rfl fun k _ => ?_
  field_simp

/-- The scales cancel on the extended reals, at real entries and nonzero real scales: the dequantised
    contraction, rescaled by the product of the scales, is the contraction of the raw entries. -/
theorem dequant_dot {ι : Type} [Fintype ι] (a b : ι → ℝ) {sa sb : ℝ} (ha : sa ≠ 0) (hb : sb ≠ 0) :
    (∑ k, Ideal.div ((a k : ℝ) : EReal) ((sa : ℝ) : EReal) * Ideal.div ((b k : ℝ) : EReal) ((sb : ℝ) : EReal))
        * (((sa : ℝ) : EReal) * ((sb : ℝ) : EReal))
      = ∑ k, ((a k : ℝ) : EReal) * ((b k : ℝ) : EReal) := by
  simp only [Ideal.div_coe ha, Ideal.div_coe hb, ← EReal.coe_mul, ← coe_sum]
  exact congrArg _ (real_cancel a b ha hb)

end Cert.ScaledDot

end
-- ==== Proof.RefValue.lean ====
/-
  The reference computes the batched product. Read at an index `(p, q, r, s)`, its result is
      (∑ k, (A (p, q, r, k) / sa) * (B (p, q, k, s) / sb)) * (sa * sb),
  the two scales being the one entry of each scale array, broadcast to every index. Where the entries of `A` and `B`
  are reals and the scales nonzero reals the scales cancel (`dequant_dot`), leaving `∑ k, A (p, q, r, k) * B (p, q, k, s)`.
-/
import proofs.«430411_j52140902974013_3_alg».proof.Proof.Gen.ReferenceIdeal.Read
import proofs.«430411_j52140902974013_3_alg».proof.Proof.Spec
import proofs.«430411_j52140902974013_3_alg».proof.Proof.Dequant

noncomputable section

namespace Cert.ScaledDot

open Idealize.ShloMosaic Idealize.ShloMosaic.ValueIdx Cert.ReferenceIdeal Cert.ReferenceIdeal.Read

/-- A one-entry array has one index. -/
theorem scale_idx_eq (u v : S1.Idx) : u = v := by
  rw [eq_ix1 u, eq_ix1 v]
  exact congrArg ix1 (Subsingleton.elim (α := Fin 1) _ _)

/-- The reference's result is the batched product of the raw operands, at real entries and nonzero real scales. -/
theorem ref_eq (x0 : FVec Ideal S4x16x2048x64 .f32) (x1 : FVec Ideal S1 .f32) (x2 : FVec Ideal S4x16x64x2048 .f32)
    (x3 : FVec Ideal S1 .f32) (h0 : ∀ i, ∃ r : ℝ, x0 i = (r : EReal)) (h2 : ∀ i, ∃ r : ℝ, x2 i = (r : EReal))
    (h1 : ∀ j, ∃ r : ℝ, r ≠ 0 ∧ x1 j = (r : EReal)) (h3 : ∀ j, ∃ r : ℝ, r ≠ 0 ∧ x3 j = (r : EReal)) :
    val_main_v10 (F := Ideal) x0 x1 x2 x3 = bmm x0 x2 := by
  funext i
  obtain ⟨p, q, r, s, rfl⟩ : ∃ (p : Fin 4) (q : Fin 16) (r : Fin 2048) (s : Fin 2048), i = ix4 p q r s :=
    ⟨i 0, i 1, i 2, i 3, eq_ix4 i⟩
  obtain ⟨sa, hsa, ea⟩ := h1 (ix1 0)
  obtain ⟨sb, hsb, eb⟩ := h3 (ix1 0)
  have e1 : ∀ j : S1.Idx, x1 j = (sa : EReal) := fun j => (congrArg x1 (scale_idx_eq j _)).trans ea
  have e3 : ∀ j : S1.Idx, x3 j = (sb : EReal) := fun j => (congrArg x3 (scale_idx_eq j _)).trans eb
  choose a ha using h0
  choose b hb using h2
  have hl : ∀ k : Fin 64, lidx_main_v7 (ix4 p q r s) k = ix4 p q r k := fun k => funext fun d => by
    match d with | ⟨0, _⟩ => rfl | ⟨1, _⟩ => rfl | ⟨2, _⟩ => rfl | ⟨3, _⟩ => rfl
  have hr : ∀ k : Fin 64, ridx_main_v7 (ix4 p q r s) k = ix4 p q k s := fun k => funext fun d => by
    match d with | ⟨0, _⟩ => rfl | ⟨1, _⟩ => rfl | ⟨2, _⟩ => rfl | ⟨3, _⟩ => rfl
  have hsum : ∑ k : Fin 64, val_main_v2 (F := Ideal) x0 x1 (lidx_main_v7 (ix4 p q r s) k)
        * val_main_v5 (F := Ideal) x2 x3 (ridx_main_v7 (ix4 p q r s) k)
      = ∑ k : Fin 64, Ideal.div ((a (ix4 p q r k) : ℝ) : EReal) ((sa : ℝ) : EReal)
        * Ideal.div ((b (ix4 p q k s) : ℝ) : EReal) ((sb : ℝ) : EReal) :=
    Finset.sum_congr rfl fun k _ => by
      rw [val_main_v2_apply, val_main_v5_apply, val_main_v1_apply, val_main_v0_apply, val_main_v4_apply,
        val_main_v3_apply, e1, e3, hl, hr, ha, hb]
      rfl
  rw [val_main_v10_apply, val_main_v7_apply, val_main_v9_apply, val_main_v8_apply, val_main_v6_apply, e1, e3,
    bmm_apply, hsum]
  show (∑ k : Fin 64, Ideal.div ((a (ix4 p q r k) : ℝ) : EReal) ((sa : ℝ) : EReal)
        * Ideal.div ((b (ix4 p q k s) : ℝ) : EReal) ((sb : ℝ) : EReal)) * (((sa : ℝ) : EReal) * ((sb : ℝ) : EReal)) = _
  rw [dequant_dot (fun k => a (ix4 p q r k)) (fun k => b (ix4 p q k s)) hsa hsb]
  exact Finset.sum_congr rfl fun k _ => by rw [ha, hb]

end Cert.ScaledDot

end
-- ==== Proof.KernelBlock.lean ====
/-
  One grid point's product. The body loads a `[1, 2048, 64]` block of the left array and a `[1, 64, 1024]` block of
  the right array, drops the unit axis of each, narrows both to bf16 (the identity on the exact values), multiplies
  them on the matrix unit into a zero accumulator and puts the unit axis back. So the stored block holds, at
  `(u, r, s)`, the sum over the 64 contracted coordinates `k` of `x0 (0, r, k) * x1 (0, k, s)`: the matrix unit's
  product read at an output index is the sum over the contraction of the operands' products, the operand indices
  being `(r, k)` and `(k, s)` for the dimension numbers `[1] × [0]`.
-/
import proofs.«430411_j52140902974013_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.ScaledDot

open Idealize.ShloMosaic Idealize.ShloMosaic.ValueIdx Cert.KernelIdeal Cert.KernelIdeal.Gen

/-- The left operand's row is the output's row, -/
theorem blk_lhs_0 (j : S2048x1024.Idx) (q : dot_S2048x64_S64x1024_S2048x1024_1_0_0_1_n_n.contr.Idx) :
    (dot_S2048x64_S64x1024_S2048x1024_1_0_0_1_n_n.lhsIdx j q 0).val = (j 0).val := by
  unfold DotDims.lhsIdx
  rw [dif_neg (show ¬(0 : Fin S2048x64.rank) ∈ dot_S2048x64_S64x1024_S2048x1024_1_0_0_1_n_n.lhsBatch by decide), dif_pos (show (0 : Fin S2048x64.rank) ∈ dot_S2048x64_S64x1024_S2048x1024_1_0_0_1_n_n.lhsNonContracting by decide)]
  rfl
/-- its column the contracted coordinate; -/
theorem blk_lhs_1 (j : S2048x1024.Idx) (q : dot_S2048x64_S64x1024_S2048x1024_1_0_0_1_n_n.contr.Idx) :
    (dot_S2048x64_S64x1024_S2048x1024_1_0_0_1_n_n.lhsIdx j q 1).val = (q ⟨0, by decide⟩).val :=
  dot_S2048x64_S64x1024_S2048x1024_1_0_0_1_n_n.lhsIdx_val_of_single rfl j q
/-- the right operand's row is the contracted coordinate, -/
theorem blk_rhs_0 (j : S2048x1024.Idx) (q : dot_S2048x64_S64x1024_S2048x1024_1_0_0_1_n_n.contr.Idx) :
    (dot_S2048x64_S64x1024_S2048x1024_1_0_0_1_n_n.rhsIdx j q 0).val = (q ⟨0, by decide⟩).val :=
  dot_S2048x64_S64x1024_S2048x1024_1_0_0_1_n_n.rhsIdx_val_of_single rfl j q
/-- its column the output's column. -/
theorem blk_rhs_1 (j : S2048x1024.Idx) (q : dot_S2048x64_S64x1024_S2048x1024_1_0_0_1_n_n.contr.Idx) :
    (dot_S2048x64_S64x1024_S2048x1024_1_0_0_1_n_n.rhsIdx j q 1).val = (j 1).val := by
  unfold DotDims.rhsIdx
  rw [dif_neg (show ¬(1 : Fin S64x1024.rank) ∈ dot_S2048x64_S64x1024_S2048x1024_1_0_0_1_n_n.rhsBatch by decide), dif_pos (show (1 : Fin S64x1024.rank) ∈ dot_S2048x64_S64x1024_S2048x1024_1_0_0_1_n_n.rhsNonContracting by decide)]
  rfl

/-- The stored block at `(u, r, s)`: row `r` of the left block against column `s` of the right block. -/
theorem block_product (x0 : Vec Ideal S1x2048x64 .f32) (x1 : Vec Ideal S1x64x1024 .f32) (u : Fin 1) (r : Fin 2048) (s : Fin 1024) :
    k0_pay1 (F := Ideal) x0 x1 (ix3 u r s) = ∑ k : Fin 64, x0 (ix3 (0 : Fin 1) r k) * x1 (ix3 (0 : Fin 1) k s) := by
  unfold k0_pay1
  refine (shapeCast_ab_1ab_apply _ _ u r s).trans ?_
  simp only [matmul]
  rw [Ideal.matmul_constant_zero_apply, ← Equiv.sum_comp (contrEquiv1 dot_S2048x64_S64x1024_S2048x1024_1_0_0_1_n_n 64 rfl rfl).symm]
  refine Finset.sum_congr rfl fun k _ => ?_
  have hk := contrEquiv1_symm_val dot_S2048x64_S64x1024_S2048x1024_1_0_0_1_n_n 64 rfl rfl k
  have el : dot_S2048x64_S64x1024_S2048x1024_1_0_0_1_n_n.lhsIdx (ix2 r s) ((contrEquiv1 dot_S2048x64_S64x1024_S2048x1024_1_0_0_1_n_n 64 rfl rfl).symm k) = ix2 r k := funext fun a => Fin.ext (by
    match a with
    | ⟨0, _⟩ => exact blk_lhs_0 _ _
    | ⟨1, _⟩ => exact (blk_lhs_1 _ _).trans hk)
  have er : dot_S2048x64_S64x1024_S2048x1024_1_0_0_1_n_n.rhsIdx (ix2 r s) ((contrEquiv1 dot_S2048x64_S64x1024_S2048x1024_1_0_0_1_n_n 64 rfl rfl).symm k) = ix2 k s := funext fun a => Fin.ext (by
    match a with
    | ⟨0, _⟩ => exact (blk_rhs_0 _ _).trans hk
    | ⟨1, _⟩ => exact blk_rhs_1 _ _)
  rw [el, er, truncf_apply, truncf_apply, shapeCast_1ab_ab_apply, shapeCast_1ab_ab_apply]

end Cert.ScaledDot

end
-- ==== Proof.KernelArray.lean ====
/-
  From blocks to the array. The grid has 64 * 2 points; point `(g, h)` takes block `(g, 0, 0)` of the left array
  `[64, 2048, 64]` (matrix `g`, whole), block `(g, 0, h)` of the right array `[64, 64, 2048]` (columns
  `1024 h … 1024 h + 1023` of matrix `g`) and writes back block `(g, 0, h)` of the result `[64, 2048, 2048]`.
  A block's entry `(u, r, s)` sits in its array at block index * block size + the entry's coordinate on each axis, so
  the product of the two blocks (`block_product`) is, at the result's index `(g, r, 1024 h + s)`, row `r` of left
  matrix `g` against column `1024 h + s` of right matrix `g`: the block of `bmm3` of the two arrays. The 128 blocks
  tile the result (index `(g, r, s')` lies in the block of point `(g, s' / 1024)`), so the array ends at `bmm3`.
-/
import proofs.«430411_j52140902974013_3_alg».proof.Proof.Gen.KernelIdeal.Frame
import proofs.«430411_j52140902974013_3_alg».proof.Proof.KernelBlock
import proofs.«430411_j52140902974013_3_alg».proof.Proof.Spec
import Idealize.ShloMosaic.Lib.Pipeline.Value

set_option maxRecDepth 16384

noncomputable section

namespace Cert.ScaledDot

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The two arrays as the region finds them, at their literal types: the left operand `[64, 2048, 64]` and the right
    operand `[64, 64, 2048]`, entries extended reals. -/
abbrev leftArr (c : Dev nD) : S64x2048x64.Idx → EReal := V m c main_v0
abbrev rightArr (c : Dev nD) : S64x64x2048.Idx → EReal := V m c main_v1

theorem hz3 : (![0, 0, 0] : Fin 3 → Nat) = fun _ => 0 := funext fun a => by fin_cases a <;> rfl

/-- The stored block at any index of the block, by its coordinates. -/
theorem block_product_at (x0 : Vec Ideal S1x2048x64 .f32) (x1 : Vec Ideal S1x64x1024 .f32) (j : S1x2048x1024.Idx) :
    k0_pay1 (F := Ideal) x0 x1 j = ∑ k : Fin 64, x0 (ix3 (0 : Fin 1) (j 1) k) * x1 (ix3 (0 : Fin 1) k (j 2)) :=
  (congrArg (k0_pay1 (F := Ideal) x0 x1) (eq_ix3 j)).trans (block_product x0 x1 (j 0) (j 1) (j 2))

/-- The printed index maps over the grid: the left window follows the result's matrix and stays at block 0 on the
    other axes, the right window follows the result's matrix and column block, and the result's block indices stay in
    range. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0
    ∧ win0_1.index t (2 : Fin 3) = win0_2.index t (2 : Fin 3) ∧ win0_2.index t (1 : Fin 3) = 0 :=
  (by decide +kernel : ∀ t : Fin grid0.N, _)

/-- Every block of the result is some point's. -/
theorem idx_onto : ∀ (g : Fin 64) (h : Fin 2), ∃ t : Fin cfg0.N, win0_2.index t = ![g.val, 0, h.val] :=
  (by decide +kernel : ∀ (g : Fin 64) (h : Fin 2), ∃ t : Fin grid0.N, win0_2.index t = ![g.val, 0, h.val])

/-- What point `t` writes back is block `t` of the merged-batch product of the two arrays as the region finds them. -/
theorem flushed_eq (c : Dev nD) (t : Fin cfg0.N) :
    (dats m 0 c).flushed 2 t = ((cfg0.win 2).blk t).view.read (Elt Ideal) (bmm3 (leftArr m c) (rightArr m c)) := by
  show (cfg0.win 2).cut (grid0.coords t) ((dats m 0 c).after 2 t) = _
  rw [after0_2]
  unfold out0_2
  rw [View.canon_unit_zero hz3]
  simp only [View.ld_unit_zero (S := S1x2048x64) hz3, View.ld_unit_zero (S := S1x64x1024) hz3]
  obtain ⟨e0, e1, e2, e3, e4, e5, e6⟩ := idx_facts t
  refine funext fun (j : S1x2048x1024.Idx) => ?_
  show k0_pay1 (F := Ideal) (iblk m c 0 t) (iblk m c 1 t) j
    = bmm3 (leftArr m c) (rightArr m c) (((cfg0.win 2).blk t).view.emb j)
  refine (block_product_at (iblk m c 0 t) (iblk m c 1 t) j).trans ?_
  show ∑ k : Fin 64, leftArr m c (((cfg0.win 0).blk t).view.emb (ix3 (0 : Fin 1) (j 1) k))
        * rightArr m c (((cfg0.win 1).blk t).view.emb (ix3 (0 : Fin 1) k (j 2)))
    = ∑ k : Fin 64, leftArr m c (ix3 ((((cfg0.win 2).blk t).view.emb j) 0) ((((cfg0.win 2).blk t).view.emb j) 1) k)
        * rightArr m c (ix3 ((((cfg0.win 2).blk t).view.emb j) 0) k ((((cfg0.win 2).blk t).view.emb j) 2))
  refine Finset.sum_congr rfl fun k _ => ?_
  have hj0 : (j 0).val < 1 := (j 0).isLt
  have h0 : ((cfg0.win 0).blk t).view.emb (ix3 (0 : Fin 1) (j 1) k)
      = ix3 ((((cfg0.win 2).blk t).view.emb j) 0) ((((cfg0.win 2).blk t).view.emb j) 1) k := by
    funext a; apply Fin.ext
    match a with
    | ⟨0, _⟩ => show win0_0.index t (0 : Fin 3) * 1 + 1 * 0 = win0_2.index t (0 : Fin 3) * 1 + 1 * (j 0).val; omega
    | ⟨1, _⟩ => show win0_0.index t (1 : Fin 3) * 2048 + 1 * (j 1).val = win0_2.index t (1 : Fin 3) * 2048 + 1 * (j 1).val; omega
    | ⟨2, _⟩ => show win0_0.index t (2 : Fin 3) * 64 + 1 * k.val = k.val; omega
  have h1 : ((cfg0.win 1).blk t).view.emb (ix3 (0 : Fin 1) k (j 2))
      = ix3 ((((cfg0.win 2).blk t).view.emb j) 0) k ((((cfg0.win 2).blk t).view.emb j) 2) := by
    funext a; apply Fin.ext
    match a with
    | ⟨0, _⟩ => show win0_1.index t (0 : Fin 3) * 1 + 1 * 0 = win0_2.index t (0 : Fin 3) * 1 + 1 * (j 0).val; omega
    | ⟨1, _⟩ => show win0_1.index t (1 : Fin 3) * 64 + 1 * k.val = k.val; omega
    | ⟨2, _⟩ => show win0_1.index t (2 : Fin 3) * 1024 + 1 * (j 2).val = win0_2.index t (2 : Fin 3) * 1024 + 1 * (j 2).val; omega
  rw [h0, h1]
  rfl

/-- An index of the result is in point `t`'s block iff each coordinate is in the block's range on its axis. -/
theorem mem_blk (t : Fin cfg0.N) (i : S64x2048x2048.Idx) :
    i ∈ ((cfg0.win 2).blk t).view.set ↔ ∀ a : Fin 3, win0_2.index t a * S1x2048x1024.size a ≤ (i a).val
      ∧ (i a).val < win0_2.index t a * S1x2048x1024.size a + S1x2048x1024.size a := by
  show i ∈ ((View.whole main_v2).slice (win0_2.rect t)).set ↔ _
  rw [View.set_slice_whole, Rect.mem_set_unit]
  exact Iff.rfl

/-- The blocks tile the result: index `(g, r, s')` is in the block of the point at `(g, s' / 1024)`. -/
theorem cover (i : S64x2048x2048.Idx) :
    ∃ t : Fin cfg0.N, (cfg0.win 2).flush t = true ∧ i ∈ ((cfg0.win 2).blk t).view.set := by
  have hi0 : (i 0).val < 64 := (i 0).isLt
  have hi1 : (i 1).val < 2048 := (i 1).isLt
  have hi2 : (i 2).val < 2048 := (i 2).isLt
  obtain ⟨t, ht⟩ := idx_onto ⟨(i 0).val, hi0⟩ ⟨(i 2).val / 1024, by omega⟩
  have q0 : win0_2.index t (0 : Fin 3) = (i 0).val := congrFun ht 0
  have q1 : win0_2.index t (1 : Fin 3) = 0 := congrFun ht 1
  have q2 : win0_2.index t (2 : Fin 3) = (i 2).val / 1024 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 1024 ≤ (i 2).val ∧ (i 2).val < win0_2.index t (2 : Fin 3) * 1024 + 1024; omega

/-- The result array after the region: the merged-batch product of the two arrays the region was given. -/
theorem final (c : Dev nD) : (dats m 0 c).arrAt 2 cfg0.N = bmm3 (leftArr m c) (rightArr m c) :=
  (dats m 0 c).arrAt_eq_of_cover 2 (bmm3 (leftArr m c) (rightArr m c)) (fun t _ => flushed_eq m c t) cover

end Cert.ScaledDot

end
-- ==== Proof.KernelRun.lean ====
/-
  The idealized kernel's run, read. Before the region @main merges the batch axes of both operands (two reshapes);
  after it @main splits the batch axis of the region's result (a reshape) and multiplies the two scale arrays entry by
  entry. The region's array ends at the merged-batch product of the two reshaped operands, and a product of merged
  batches read through the three reshapes is the batched product of the operands themselves (`bmm3_reshape`). So the
  first result is `bmm` of the two operands and the second the product of the two scales; no argument array is written.
-/
import proofs.«430411_j52140902974013_3_alg».proof.Proof.Gen.KernelIdeal.Frame
import proofs.«430411_j52140902974013_3_alg».proof.Proof.KernelArray
import Idealize.ShloMosaic.Lib.StableHlo.Run

set_option maxRecDepth 16384

noncomputable section

namespace Cert.ScaledDot

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-- The region finds the left array at the left operand with its batch axes merged, -/
theorem left_array (c : Dev nD) :
    leftArr m c = shapeCast S64x2048x64 (m ((c : Thread nD τ).loc main_arg0)) shapeCasts_S4x16x2048x64_S64x2048x64 := by
  show StableHlo.after hostOps0 (fun b => m (c, b)) (Proc.devRef .tc main_v0) = _
  after_results
  rfl

/-- and the right array at the right operand with its batch axes merged. -/
theorem right_array (c : Dev nD) :
    rightArr m c = shapeCast S64x64x2048 (m ((c : Thread nD τ).loc main_arg2)) shapeCasts_S4x16x64x2048_S64x64x2048 := by
  show StableHlo.after hostOps0 (fun b => m (c, b)) (Proc.devRef .tc main_v1) = _
  after_results
  rfl

/-- The first result: the region's array with its batch axis split, the batched product of the two operands. -/
theorem result_out (c : Dev nD) :
    Pipeline.afterTail₀ cfgs (dats m) 0 (V0 m) [hostOps1] c main_v3
      = bmm (m ((c : Thread nD τ).loc main_arg0)) (m ((c : Thread nD τ).loc main_arg2)) := by
  have hw : Pipeline.withArrays (cfgs 0).spec c (V0 m c) (fun w => (dats m 0 c).arrAt w (cfgs 0).N) (Proc.devRef .tc main_v2)
      = bmm3 (leftArr m c) (rightArr m c) :=
    (Pipeline.withArrays_arr spec0 launch0.win.arr_inj c _ _ 2).trans (final m c)
  unfold Pipeline.afterTail₀
  show StableHlo.after hostOps1 _ (Proc.devRef .tc main_v3) = _
  after_results
  rw [hw, left_array m c, right_array m c]
  exact bmm3_reshape (m ((c : Thread nD τ).loc main_arg0)) (m ((c : Thread nD τ).loc main_arg2))
    shapeCasts_S4x16x2048x64_S64x2048x64 shapeCasts_S4x16x64x2048_S64x64x2048 shapeCasts_S64x2048x2048_S4x16x2048x2048

/-- The second result: the product of the two scale arrays, as launched. -/
theorem result_scale (c : Dev nD) :
    Pipeline.afterTail₀ cfgs (dats m) 0 (V0 m) [hostOps1] c main_v4
      = mulf (F := Ideal) (s := S1) (φ := .f32) (m ((c : Thread nD τ).loc main_arg1)) (m ((c : Thread nD τ).loc main_arg3)) := by
  have h1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  have h3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  unfold Pipeline.afterTail₀
  show StableHlo.after hostOps1 _ (Proc.devRef .tc main_v4) = _
  after_results
  rw [h1, h3]

/-- Every weakly fair execution of the idealized kernel terminates with the first result at the batched product of the
    operands, the second at the product of the scales, and the arguments unchanged. -/
theorem run : θ_run defs (onTc (τ := τ) (main (F := Ideal))) ⟨m, fun _ => 0, ρ⟩ fun r => ∀ c : Dev nD,
      r.2.mem ((c.tc : Thread nD τ).loc main_v3) = bmm (m ((c.tc : Thread nD τ).loc main_arg0)) (m ((c.tc : Thread nD τ).loc main_arg2))
      ∧ r.2.mem ((c.tc : Thread nD τ).loc main_v4) = mulf (F := Ideal) (s := S1) (φ := .f32) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (result_out m c),
      ((h c).2 main_v4 (Pipeline.mem_restRefs_of main_v4 (by decide) (by decide))).trans (result_scale m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.ScaledDot

end
-- ==== Proof.lean ====
/-
  The kernel multiplies 4 * 16 pairs of matrices, `A : [4, 16, 2048, 64]` against `B : [4, 16, 64, 2048]`, and returns
  the products beside the product `sa * sb` of two one-entry scale arrays. The reference first divides `A` by `sa` and
  `B` by `sb`, multiplies the quotients, and multiplies every product by `sa * sb`. On the extended reals the two
  agree where every entry of `A` and `B` is finite and both scales are finite and NONZERO — the precondition: then
      (∑ k, (A (p, q, r, k) / sa) * (B (p, q, k, s) / sb)) * (sa * sb) = ∑ k, A (p, q, r, k) * B (p, q, k, s),
  all terms being reals and `(1/sa) (1/sb) (sa sb) = 1` (at a zero scale the reference's quotient is an infinity and
  its rescaled product `0`, while the kernel's product is whatever `A` and `B` give: the claim needs the scales nonzero).
  The kernel's side: its narrowing of the operands to bf16 is the identity on the exact values, each grid point's
  matrix-unit product into a zero accumulator is the plain sum over the contraction, the 128 result blocks tile the
  result array, and the reshapes around the region merge and split the batch axes without moving an entry's
  row-major position. The ideal pass rewrote nothing, so the idealization claim has no conjunct.
-/
import proofs.«430411_j52140902974013_3_alg».proof.Defs
import proofs.«430411_j52140902974013_3_alg».proof.Proof.Gen.Kernel
import proofs.«430411_j52140902974013_3_alg».proof.Proof.Gen.Kernel.Skeleton
import proofs.«430411_j52140902974013_3_alg».proof.Proof.Gen.Kernel.Launch
import proofs.«430411_j52140902974013_3_alg».proof.Proof.Gen.Kernel.Points
import proofs.«430411_j52140902974013_3_alg».proof.Proof.Gen.Kernel.Frame
import proofs.«430411_j52140902974013_3_alg».proof.Proof.Gen.KernelIdeal
import proofs.«430411_j52140902974013_3_alg».proof.Proof.Gen.KernelIdeal.Skeleton
import proofs.«430411_j52140902974013_3_alg».proof.Proof.Gen.KernelIdeal.Launch
import proofs.«430411_j52140902974013_3_alg».proof.Proof.Gen.KernelIdeal.Points
import proofs.«430411_j52140902974013_3_alg».proof.Proof.Gen.KernelIdeal.Frame
import proofs.«430411_j52140902974013_3_alg».proof.Proof.Gen.ReferenceIdeal
import proofs.«430411_j52140902974013_3_alg».proof.Proof.Gen.Pre_finite_inputs
import proofs.«430411_j52140902974013_3_alg».proof.Proof.Gen.ReferenceIdeal.Run
import proofs.«430411_j52140902974013_3_alg».proof.Proof.Gen.ReferenceIdeal.Read
import proofs.«430411_j52140902974013_3_alg».proof.Proof.Finite
import proofs.«430411_j52140902974013_3_alg».proof.Proof.RefValue
import proofs.«430411_j52140902974013_3_alg».proof.Proof.KernelRun
import Idealize.ShloMosaic.Adequacy
import Idealize.ShloMosaic.Init

noncomputable section

namespace Cert.Proof

open Idealize.ShloMosaic Idealize.SL.Sem

/-- The kernel as printed runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference has no kernel: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- Both idealized programs end with the batched product of the two operands and the product of the two scales: the
    kernel by its run read back, the reference by the cancellation of the scales at the finite, nonzero-scaled inputs
    the precondition admits. -/
theorem algebraic : Cert.algebraic_KernelIdeal_ReferenceIdeal := by
  intro m ρ m' ρ' hpre hagree
  refine ⟨fun c => Cert.ScaledDot.bmm (m ((c.tc : Thread _ _).loc Cert.KernelIdeal.main_arg0)) (m ((c.tc : Thread _ _).loc Cert.KernelIdeal.main_arg2)),
    fun c => mulf (F := Ideal) (s := Cert.KernelIdeal.S1) (φ := .f32) (m ((c.tc : Thread _ _).loc Cert.KernelIdeal.main_arg1)) (m ((c.tc : Thread _ _).loc Cert.KernelIdeal.main_arg3)),
    Cert.ScaledDot.run m ρ, ?_⟩
  refine (θ_run Cert.ReferenceIdeal.defs _ _).mono (fun _ h c => ?_) (Cert.ReferenceIdeal.Value.run (F := Ideal) m' ρ')
  obtain ⟨f0, f2, f1, f3⟩ := Cert.ScaledDot.of_pre _ _ _ _ (hpre c)
  refine ⟨(h c).1.trans ?_, (h c).2.1.trans ?_, (h c).2.2⟩
  · rw [(hagree c).1, (hagree c).2.1, (hagree c).2.2.1, (hagree c).2.2.2, Cert.ReferenceIdeal.Read.val_main_v10_eq]
    exact Cert.ScaledDot.ref_eq _ _ _ _ f0 f2 f1 f3
  · rw [(hagree c).2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
